-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16 : Shape := ⟨1, ![16]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16 : Shape := ⟨1, ![16]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S1 : Shape := ⟨1, ![1]⟩
abbrev S256 : Shape := ⟨1, ![256]⟩
abbrev S256x1 : Shape := ⟨2, ![256, 1]⟩

abbrev nBuf : Space → Nat
  | .hbm => 4
  | .vmem => 8
  | .smem => 1
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .smem, ⟨0, _⟩ => ⟨S16, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v17 : Index := Scalar.indexCast arg0
  ![v17.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S256x2048_d0_w32 : S256x2048.Iotas .tc 32 [0]
  iota_S256x2048_d1_w32 : S256x2048.Iotas .tc 32 [1]
  numel1_S1 : S1.numel = 1
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev spec0_0 : Pipeline.WinSpec sig grid0.rank :=
  Pipeline.WinSpec.ofSpec (Memref.whole main_arg0) S1x256x64.size reads0_0 false false 2 stage0_0 sem0_0 nbuf0_0 hstage0_0

abbrev spec0_1 : Pipeline.WinSpec sig grid0.rank :=
  Pipeline.WinSpec.ofSpec (Memref.whole main_arg1) S1x2048x64.size reads0_1 false false 2 stage0_1 sem0_1 nbuf0_1 hstage0_1

abbrev spec0_2 : Pipeline.WinSpec sig grid0.rank :=
  Pipeline.WinSpec.ofSpec (Memref.whole main_arg2) S1x2048x64.size reads0_2 false false 2 stage0_2 sem0_2 nbuf0_2 hstage0_2

abbrev spec0_3 : Pipeline.WinSpec sig grid0.rank :=
  Pipeline.WinSpec.ofSpec (Memref.whole main_v0) S1x256x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x64 : Shape := ⟨3, ![16, 2048, 64]⟩
abbrev S16 : Shape := ⟨1, ![16]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S2048x2048 : Shape := ⟨2, ![2048, 2048]⟩
abbrev S_ : Shape := ⟨0, ![]⟩
abbrev S1x2048x2048 : Shape := ⟨3, ![1, 2048, 2048]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16, .i32⟩
  | .hbm, ⟨4, _⟩ => ⟨S2048, .i32⟩
  | .hbm, ⟨5, _⟩ => ⟨S1x1x2048, .i32⟩
  | .hbm, ⟨6, _⟩ => ⟨S16x1x1, .i32⟩
  | .hbm, ⟨7, _⟩ => ⟨S16x1x2048, .i32⟩
  | .hbm, ⟨8, _⟩ => ⟨S16x1x2048, .i32⟩
  | .hbm, ⟨9, _⟩ => ⟨S16x1x2048, .i1⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x2048x2048, .i1⟩
  | .hbm, ⟨17, _⟩ => ⟨S16x2048x2048, .i1⟩
  | .hbm, ⟨18, _⟩ => ⟨S16x2048x2048, .i1⟩
  | .hbm, ⟨19, _⟩ => ⟨S16x2048x2048, .i1⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S16x1x2048_S16x2048x2048_0_1_2 : S16x1x2048.BroadcastsInDim S16x2048x2048 (![0, 1, 2] : Fin 3 → Fin S16x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.AttnSpec.lean ====
/-
  Masked-softmax attention, stated once as a function on the extended reals.

  One query row `qrow` (64 features) meets every key row `K s` (2048 of them): the score at key `s` is the
  inner product over the features times the scale `1/8`; a key the mask drops gets the large negative stand-in
  instead. The row's weights are `exp (z s - M)` with `M` the largest masked score (taken from `-∞`, and once
  more against `-∞`, as both programs do), normalised by their sum; the row's output at value feature `e` is
  the weighted sum of the value rows `V s e`.

  `attn` lays that row function out over the whole `[16, 2048, 64]` arrays: batch `n`, query position `p`,
  value feature `e`; key `s` is kept when `s < prefix n` (signed words) or `s = p`.

  The three float words are kept as bit patterns: both programs carry the same words, so none is ever evaluated.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The score scale, the word of `0.125`. -/
abbrev cScale : EReal := Ideal.ofBits .f32 0x3E000000#32
/-- The stand-in a dropped key's score is replaced by, the word of `-1e9`. -/
abbrev negBig : EReal := Ideal.ofBits .f32 0xCE6E6B28#32
/-- The word of `-∞`, from which the row maximum is taken. -/
abbrev negInf : EReal := Ideal.ofBits .f32 0xFF800000#32

/-- The masked score of one query row at key `s`. -/
def score (qrow : Fin 64 → EReal) (K : Fin 2048 → Fin 64 → EReal) (keep : Fin 2048 → BitVec 1) (s : Fin 2048) : EReal :=
  Scalar.select (keep s) ((∑ d : Fin 64, qrow d * K s d) * cScale) negBig

/-- The largest of a row of scores, from `-∞`. -/
def rowMax (z : Fin 2048 → EReal) : EReal :=
  max negInf ((Finset.univ : Finset (Fin 2048)).fold max negInf z)

/-- The unnormalised softmax weight of key `s`. -/
def weight (z : Fin 2048 → EReal) (s : Fin 2048) : EReal := Ideal.exp (z s - rowMax z)

/-- The normalised softmax weight of key `s`: its weight over the sum of the row's weights. -/
def prob (z : Fin 2048 → EReal) (s : Fin 2048) : EReal :=
  Ideal.div (weight z s) (∑ s' : Fin 2048, weight z s')

/-- Attention of one query row: the value rows averaged by the row's softmax weights. -/
def attnRow (qrow : Fin 64 → EReal) (K V : Fin 2048 → Fin 64 → EReal) (keep : Fin 2048 → BitVec 1) (e : Fin 64) : EReal :=
  ∑ s : Fin 2048, prob (score qrow K keep) s * V s e

/-- Key `s` is kept for query position `p` under prefix length `w`: inside the prefix, or on the diagonal. -/
def keepBit (w : BitVec 32) (p s : Fin 2048) : BitVec 1 :=
  IntOp.ori (IntOp.cmpi .slt (BitVec.ofNat 32 s.val) w) (IntOp.cmpi .eq (BitVec.ofNat 32 p.val) (BitVec.ofNat 32 s.val))

abbrev SQKV : Shape := ⟨3, ![16, 2048, 64]⟩
abbrev SPre : Shape := ⟨1, ![16]⟩

/-- The whole result array: at `(n, p, e)` the attention of query row `(n, p)` over batch `n`'s keys and values. -/
def attn (q k v : SQKV.Idx → EReal) (pre : SPre.Idx → BitVec 32) : SQKV.Idx → EReal := fun i =>
  attnRow (fun d => q (ix3 (i 0) (i 1) d)) (fun s d => k (ix3 (i 0) s d)) (fun s e => v (ix3 (i 0) s e))
    (keepBit (pre (ix1 (i 0))) (i 1)) (i 2)

end Cert.Attn

end
-- ==== Proof.RefIsSpec.lean ====
/-
  The reference program computes `Cert.Attn.attn`: read one operation at a time at an index, its batched
  contraction of queries with keys, the scale, the prefix-or-diagonal mask, the softmax along the keys and the
  contraction with the values are, at `(n, p, e)`, the row function of AttnSpec at query row `(n, p)`.
-/
import proofs.«426738_j31782757991059_1_alg».proof.Proof.Gen.ReferenceIdeal.Read
import proofs.«426738_j31782757991059_1_alg».proof.Proof.AttnSpec
import Idealize.ShloMosaic.PureOps.Reduce

noncomputable section

namespace Cert.Attn.Ref

open Cert.ReferenceIdeal Cert.ReferenceIdeal.Gen Cert.ReferenceIdeal.Read
open Idealize.ShloMosaic Idealize.ShloMosaic.ValueIdx Cert.Attn

variable (x0 x1 x2 : (⟨S16x2048x64, .f32⟩ : BufTy).Contents (Elt Ideal)) (x3 : (⟨S16, .i32⟩ : BufTy).Contents (Elt Ideal))

/-! ## Index bookkeeping: the reference's composed index maps at coordinates -/

theorem lidx15 (n : Fin 16) (p s : Fin 2048) (k : Fin 64) : lidx_main_v15 (ix3 n p s) k = ix3 n p k :=
  funext fun a => Fin.ext (by match a with | ⟨0, _⟩ => rfl | ⟨1, _⟩ => rfl | ⟨2, _⟩ => rfl)
theorem ridx15 (n : Fin 16) (p s : Fin 2048) (k : Fin 64) : ridx_main_v15 (ix3 n p s) k = ix3 n s k :=
  funext fun a => Fin.ext (by match a with | ⟨0, _⟩ => rfl | ⟨1, _⟩ => rfl | ⟨2, _⟩ => rfl)
theorem preIdx (n : Fin 16) (p s : Fin 2048) : idx_main_v2 (idx_main_v4 (idx_main_v12 (ix3 n p s))) = ix1 n :=
  funext fun a => Fin.ext (by match a with | ⟨0, _⟩ => rfl)
theorem rowIdx (n : Fin 16) (p s : Fin 2048) : idx_main_v22 (idx_main_v23 (ix3 n p s)) = ix2 n p :=
  funext fun a => Fin.ext (by match a with | ⟨0, _⟩ => rfl | ⟨1, _⟩ => rfl)
theorem rowIdx' (n : Fin 16) (p s : Fin 2048) : idx_main_v27 (idx_main_v28 (ix3 n p s)) = ix2 n p :=
  funext fun a => Fin.ext (by match a with | ⟨0, _⟩ => rfl | ⟨1, _⟩ => rfl)
theorem sumIdx (n : Fin 16) (p s : Fin 2048) : idx_main_v26 (ix2 n p) s = ix3 n p s :=
  funext fun a => Fin.ext (by match a with | ⟨0, _⟩ => rfl | ⟨1, _⟩ => rfl | ⟨2, _⟩ => rfl)
theorem lidx30 (n : Fin 16) (p : Fin 2048) (e : Fin 64) (s : Fin 2048) : lidx_main_v30 (ix3 n p e) s = ix3 n p s :=
  funext fun a => Fin.ext (by match a with | ⟨0, _⟩ => rfl | ⟨1, _⟩ => rfl | ⟨2, _⟩ => rfl)
theorem ridx30 (n : Fin 16) (p : Fin 2048) (e : Fin 64) (s : Fin 2048) : ridx_main_v30 (ix3 n p e) s = ix3 n s e :=
  funext fun a => Fin.ext (by match a with | ⟨0, _⟩ => rfl | ⟨1, _⟩ => rfl | ⟨2, _⟩ => rfl)
/-- The key axis put back into a `(n, p)` row index. -/
theorem lift_row (h : S16x2048x2048.Reduces [2] S16x2048) (n : Fin 16) (p s : Fin 2048) :
    h.lift (ix2 n p) s = ix3 n p s :=
  funext fun a => Fin.ext (by match a with | ⟨0, _⟩ => rfl | ⟨1, _⟩ => rfl | ⟨2, _⟩ => rfl)

/-! ## The stages at coordinates -/

/-- The masked, scaled score at batch `n`, query `p`, key `s`. -/
theorem masked_at (n : Fin 16) (p s : Fin 2048) :
    val_main_v18 (F := Ideal) x0 x1 x3 (ix3 n p s)
      = score (fun d => x0 (ix3 n p d)) (fun s d => x1 (ix3 n s d)) (keepBit (x3 (ix1 n)) p) s := by
  rw [val_main_v18_apply, val_main_v14_apply, val_main_v12_apply, val_main_v5_apply, val_main_v3_apply,
    val_main_v1_apply, val_main_v0_apply, val_main_v4_apply, val_main_v2_apply, val_main_v13_apply,
    val_main_v11_apply, val_main_v10_apply, val_main_v9_apply, val_main_v6_apply, val_main_v8_apply,
    val_main_c_apply, val_main_v7_apply, val_main_v17_apply, val_main_v15_apply, val_main_v16_apply,
    val_main_cst_apply, val_main_call0_v1_apply, val_main_call0_v0_apply, val_main_cst_0_apply, preIdx]
  simp only [lidx15, ridx15]
  unfold score keepBit
  rw [show IntOp.addi (BitVec.ofNat 32 (idx_main_v11 (idx_main_v13 (ix3 n p s)) 0).val) 0#32
        = BitVec.ofNat 32 p.val from BitVec.add_zero _]
  rfl

/-- The row maximum at `(n, p)`: the largest masked score over the keys, from `-∞`. -/
theorem max_at (n : Fin 16) (p : Fin 2048) :
    val_main_v21 (F := Ideal) x0 x1 x3 (ix2 n p) = rowMax (fun s => val_main_v18 (F := Ideal) x0 x1 x3 (ix3 n p s)) := by
  rw [val_main_v21_apply, val_main_v20_apply, val_main_cst_2_apply]
  unfold val_main_v19
  rw [Host.reduce_eq_fold_single FloatOps.maximumf _ _ reducesTo_S16x2048x2048_S16x2048_d2 (by decide) h_S_]
  unfold rowMax
  show max negInf ((Finset.univ : Finset (Fin 2048)).fold max negInf _) = _
  refine congrArg (max negInf) (Finset.fold_congr fun s _ => ?_)
  exact congrArg (val_main_v18 (F := Ideal) x0 x1 x3) (lift_row _ n p s)

/-- The unnormalised weight at `(n, p, s)`. -/
theorem weight_at (n : Fin 16) (p s : Fin 2048) :
    val_main_v25 (F := Ideal) x0 x1 x3 (ix3 n p s) = weight (fun s => val_main_v18 (F := Ideal) x0 x1 x3 (ix3 n p s)) s := by
  rw [val_main_v25_apply, val_main_v24_apply, val_main_v23_apply, val_main_v22_apply, rowIdx, max_at]
  rfl

/-- The sum of a row's weights at `(n, p)` (the host's sum starts from the word of zero). -/
theorem sum_at (n : Fin 16) (p : Fin 2048) :
    val_main_v26 (F := Ideal) x0 x1 x3 (ix2 n p) = ∑ s : Fin 2048, val_main_v25 (F := Ideal) x0 x1 x3 (ix3 n p s) := by
  rw [val_main_v26_apply, val_main_cst_3_apply, Ideal.ofBits_def, Ideal.ofBits_zero_f32, zero_add]
  exact Finset.sum_congr rfl fun s _ => congrArg _ (sumIdx n p s)

/-- The normalised weight at `(n, p, s)`. -/
theorem prob_at (n : Fin 16) (p s : Fin 2048) :
    val_main_v29 (F := Ideal) x0 x1 x3 (ix3 n p s) = prob (fun s => val_main_v18 (F := Ideal) x0 x1 x3 (ix3 n p s)) s := by
  rw [val_main_v29_apply, val_main_v28_apply, val_main_v27_apply, rowIdx', sum_at, weight_at]
  simp only [weight_at]
  rfl

/-- THE REFERENCE IS THE SPECIFICATION: its result, as a function of the four arguments, is `attn`. -/
theorem ref_eq : val_main_v30 (F := Ideal) x0 x1 x2 x3 = attn x0 x1 x2 x3 := by
  funext i
  obtain ⟨n, p, e, rfl⟩ : ∃ (n : Fin 16) (p : Fin 2048) (e : Fin 64), i = ix3 n p e := ⟨i 0, i 1, i 2, eq_ix3 i⟩
  rw [val_main_v30_apply]
  unfold attn attnRow
  refine Finset.sum_congr rfl fun s _ => ?_
  rw [lidx30, ridx30, prob_at]
  simp only [masked_at]

end Cert.Attn.Ref

end
-- ==== Proof.KernelDots.lean ====
/-
  The kernel's two matrix products, each into a zero accumulator, read at an output index as plain sums.

  Scores: a `[256, 64]` block of queries against a `[2048, 64]` block of keys, both contracted along their
  feature axis: entry `(p, s)` is the sum over the 64 features `d` of `a (p, d) * b (s, d)`.
  Output: `[256, 2048]` weights against `[2048, 64]` values, the weights' key axis contracted with the values'
  row axis: entry `(p, e)` is the sum over the 2048 keys `s` of `a (p, s) * b (s, e)`.
-/
import proofs.«426738_j31782757991059_1_alg».proof.Proof.Gen.KernelIdeal
import Idealize.ShloMosaic.PureOps.Ideal.Laws
import Idealize.ShloMosaic.Lib.ValueIdx

noncomputable section

namespace Cert.Attn.Dots

open Cert.KernelIdeal Cert.KernelIdeal.Gen
open Idealize.ShloMosaic Idealize.ShloMosaic.ValueIdx

/-! ## Queries against keys: where each operand is read -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score product at `(p, s)`: the inner product of query row `p` and key row `s` over the 64 features. -/
theorem scores_apply {φ₁ φ₂ : FTy} (a : FVec Ideal S256x64 φ₁) (b : FVec Ideal S2048x64 φ₂) (p : Fin 256) (s : Fin 2048) :
    matmul dot_S256x64_S2048x64_S256x2048_1_1_0_0_n_n none a b (constant S256x2048 .f32 0x00000000#32) (ix2 p s)
      = ∑ d : Fin 64, a (ix2 p d) * b (ix2 s d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 p s) ((ValueIdx.contrEquiv1 dot_S256x64_S2048x64_S256x2048_1_1_0_0_n_n 64 rfl rfl).symm k) = ix2 p k := funext fun x => Fin.ext (by
    match x with
    | ⟨0, _⟩ => exact lhs_qk_0 _ _
    | ⟨1, _⟩ => exact (lhs_qk_1 _ _).trans hk)
  have er : dot_S256x64_S2048x64_S256x2048_1_1_0_0_n_n.rhsIdx (ix2 p s) ((ValueIdx.contrEquiv1 dot_S256x64_S2048x64_S256x2048_1_1_0_0_n_n 64 rfl rfl).symm k) = ix2 s k := funext fun x => Fin.ext (by
    match x with
    | ⟨0, _⟩ => exact rhs_qk_0 _ _
    | ⟨1, _⟩ => exact (rhs_qk_1 _ _).trans hk)
  rw [el, er]

/-! ## Weights against values: where each operand is read -/

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output product at `(p, e)`: weight row `p` against value column `e`, summed over the 2048 keys. -/
theorem output_apply {φ₁ φ₂ : FTy} (a : FVec Ideal S256x2048 φ₁) (b : FVec Ideal S2048x64 φ₂) (p : Fin 256) (e : Fin 64) :
    matmul dot_S256x2048_S2048x64_S256x64_1_0_0_1_n_n none a b (constant S256x64 .f32 0x00000000#32) (ix2 p e)
      = ∑ s : Fin 2048, a (ix2 p s) * b (ix2 s e) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p e) ((ValueIdx.contrEquiv1 dot_S256x2048_S2048x64_S256x64_1_0_0_1_n_n 2048 rfl rfl).symm k) = ix2 p k := funext fun x => Fin.ext (by
    match x with
    | ⟨0, _⟩ => exact lhs_pv_0 _ _
    | ⟨1, _⟩ => exact (lhs_pv_1 _ _).trans hk)
  have er : dot_S256x2048_S2048x64_S256x64_1_0_0_1_n_n.rhsIdx (ix2 p e) ((ValueIdx.contrEquiv1 dot_S256x2048_S2048x64_S256x64_1_0_0_1_n_n 2048 rfl rfl).symm k) = ix2 k e := funext fun x => Fin.ext (by
    match x with
    | ⟨0, _⟩ => exact (rhs_pv_0 _ _).trans hk
    | ⟨1, _⟩ => exact rhs_pv_1 _ _)
  rw [el, er]

end Cert.Attn.Dots

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KernelPayload.lean ====
/-
  What the kernel body computes on one grid point's blocks, read at an index.

  The body takes a `[1, 256, 64]` block of queries, the `[1, 2048, 64]` blocks of one batch's keys and values and
  that batch's prefix length `w`, and produces a `[256, 64]` block. Its arithmetic is cut here in three:
  `maskedScores` (queries against keys, scaled, masked), `softmaxRows` (the row maximum, the exponentials, their
  row sums, the quotient) and the product with the values. Each is read at an index, and together they are the row
  function of AttnSpec at the block's row `p`, the keep-mask in the kernel's own spelling (`keepK`): key `s` is
  kept when `s < w` or when `qi * 256 + p = s`, `qi` the grid's query-tile coordinate.
-/
import proofs.«426738_j31782757991059_1_alg».proof.Proof.Gen.KernelIdeal.Skeleton
import proofs.«426738_j31782757991059_1_alg».proof.Proof.KernelDots
import proofs.«426738_j31782757991059_1_alg».proof.Proof.LibColumn
import proofs.«426738_j31782757991059_1_alg».proof.Proof.AttnSpec
import Idealize.ShloMosaic.Lib.ValueLayout
import Idealize.ShloMosaic.Lib.Pipeline.Value

noncomputable section

namespace Cert.Attn.Kern

open Cert.KernelIdeal Cert.KernelIdeal.Gen
open Idealize.ShloMosaic Idealize.ShloMosaic.ValueIdx Cert.Attn Cert.Attn.Column

/-- The keep-mask as the kernel spells it, at row `p` of query tile `qi`. -/
def keepK (w : BitVec 32) (qi : ℕ) (p : Fin 256) (s : Fin 2048) : BitVec 1 :=
  IntOp.ori (IntOp.cmpi .slt (BitVec.ofNat 32 s.val) w)
    (IntOp.cmpi .eq (IntOp.addi (Scalar.muli (BitVec.ofNat 32 qi) 256#32) (BitVec.ofNat 32 p.val)) (BitVec.ofNat 32 s.val))

/-- Queries against keys, scaled by `1/8`, the dropped keys replaced by the stand-in. -/
def maskedScores (i : grid0.Coords) (v0 : Vec Ideal S1x256x64 .f32) (v3 : Vec Ideal S1x2048x64 .f32) (w : Elt Ideal .i32) :
    FVec Ideal S256x2048 .f32 :=
  select
    (ori (cmpi .slt (iota .tc S256x2048 32 [1] iota_S256x2048_d1_w32) (broadcast S256x2048 w))
      (cmpi .eq (addi (broadcast S256x2048 (Scalar.muli (BitVec.ofNat 32 (i 1).val) 256#32)) (iota .tc S256x2048 32 [0] iota_S256x2048_d0_w32))
        (iota .tc S256x2048 32 [1] iota_S256x2048_d1_w32)))
    (mulf (matmul dot_S256x64_S2048x64_S256x2048_1_1_0_0_n_n none
        (truncf .bf16 (shapeCast S256x64 v0 shapeCasts_S1x256x64_S256x64) bitsLt_bf16_f32)
        (truncf .bf16 (shapeCast S2048x64 v3 shapeCasts_S1x2048x64_S2048x64) bitsLt_bf16_f32)
        (constant S256x2048 .f32 0x00000000#32))
      (broadcast S256x2048 (Scalar.ofBits .f32 0x3E000000#32)))
    (broadcast S256x2048 (Scalar.ofBits .f32 0xCE6E6B28#32))

/-- Each row's maximum, from `-∞` and once more against `-∞`. -/
def rowMaxK (z : FVec Ideal S256x2048 .f32) : FVec Ideal S256 .f32 :=
  maximumf (broadcast S256 (Scalar.ofBits .f32 0xFF800000#32))
    (multiReduction .maximumf [1] S256 z 0xFF800000#32 reduces_S256x2048_S256 (.inl rfl) rfl)

/-- The exponentials of the scores less their row's maximum. -/
def weightsK (z : FVec Ideal S256x2048 .f32) : FVec Ideal S256x2048 .f32 :=
  exp (subf z (broadcastTo S256x2048 (shapeCast S256x1 (rowMaxK z) shapeCasts_S256_S256x1) broadcasts_S256x1_S256x2048))

/-- The exponentials over their row sums. -/
def softmaxRows (z : FVec Ideal S256x2048 .f32) : FVec Ideal S256x2048 .f32 :=
  divf (weightsK z)
    (broadcastTo S256x2048 (shapeCast S256x1
      (multiReduction .add [1] S256 (weightsK z) 0x00000000#32 reduces_S256x2048_S256 (.inl rfl) rfl)
      shapeCasts_S256_S256x1) broadcasts_S256x1_S256x2048)

/-- The body's arithmetic is those three and the product with the values. -/
theorem pay_split (i : grid0.Coords) (v0 : Vec Ideal S1x256x64 .f32) (v3 v6 : Vec Ideal S1x2048x64 .f32) (w : Elt Ideal .i32) :
    k0_pay2 (F := Ideal) i v0 v3 v6 w
      = matmul dot_S256x2048_S2048x64_S256x64_1_0_0_1_n_n none
          (truncf .bf16 (softmaxRows (maskedScores i v0 v3 w)) bitsLt_bf16_f32)
          (truncf .bf16 (shapeCast S2048x64 v6 shapeCasts_S1x2048x64_S2048x64) bitsLt_bf16_f32)
          (constant S256x64 .f32 0x00000000#32) := rfl

/-- The key axis put back into a row index of the `[256, 2048]` scores. -/
theorem lift_row (h : S256x2048.Reduces [1] S256) (p : Fin 256) (s : Fin 2048) : h.lift (ix1 p) s = ix2 p s :=
  funext fun a => Fin.ext (by match a with | ⟨0, _⟩ => rfl | ⟨1, _⟩ => rfl)

theorem maskedScores_apply (i : grid0.Coords) (v0 : Vec Ideal S1x256x64 .f32) (v3 : Vec Ideal S1x2048x64 .f32) (w : Elt Ideal .i32)
    (p : Fin 256) (s : Fin 2048) :
    maskedScores i v0 v3 w (ix2 p s)
      = score (fun d => v0 (ix3 (0 : Fin 1) p d)) (fun s d => v3 (ix3 (0 : Fin 1) s d)) (keepK w (i 1).val p) s := by
  unfold maskedScores
  rw [select_apply]
  show Scalar.select (IntOp.ori (IntOp.cmpi .slt (iota .tc S256x2048 32 [1] iota_S256x2048_d1_w32 (ix2 p s)) w)
      (IntOp.cmpi .eq (IntOp.addi (Scalar.muli (BitVec.ofNat 32 (i 1).val) 256#32) (iota .tc S256x2048 32 [0] iota_S256x2048_d0_w32 (ix2 p s)))
        (iota .tc S256x2048 32 [1] iota_S256x2048_d1_w32 (ix2 p s))))
    (matmul dot_S256x64_S2048x64_S256x2048_1_1_0_0_n_n none _ _ _ (ix2 p s) * Ideal.ofBits .f32 0x3E000000#32) (Ideal.ofBits .f32 0xCE6E6B28#32) = _
  rw [iota_single_apply, iota_single_apply, Dots.scores_apply]
  unfold score keepK
  simp only [truncf_apply, shapeCast_1ab_ab_apply]

theorem rowMaxK_apply (z : FVec Ideal S256x2048 .f32) (p : Fin 256) :
    rowMaxK z (ix1 p) = rowMax (fun s => z (ix2 p s)) := by
  unfold rowMaxK rowMax
  show max negInf (multiReduction .maximumf [1] S256 z 0xFF800000#32 reduces_S256x2048_S256 (.inl rfl) rfl (ix1 p)) = _
  refine congrArg (max negInf)
    ((Ideal.multiReduction_maximumf_single z 0xFF800000#32 reduces_S256x2048_S256 (.inl rfl) rfl (ix1 p)).trans ?_)
  exact Finset.fold_congr fun s _ => congrArg z (lift_row _ p s)

theorem weightsK_apply (z : FVec Ideal S256x2048 .f32) (p : Fin 256) (s : Fin 2048) :
    weightsK z (ix2 p s) = weight (fun s => z (ix2 p s)) s := by
  unfold weightsK weight
  show Ideal.exp (z (ix2 p s) - broadcastTo S256x2048 _ broadcasts_S256x1_S256x2048 (ix2 p s)) = _
  rw [broadcastTo_a1_ab_apply, shapeCast_a_a1_apply, rowMaxK_apply]

theorem softmaxRows_apply (z : FVec Ideal S256x2048 .f32) (p : Fin 256) (s : Fin 2048) :
    softmaxRows z (ix2 p s) = prob (fun s => z (ix2 p s)) s := by
  unfold softmaxRows prob
  show Ideal.div (weightsK z (ix2 p s)) (broadcastTo S256x2048 _ broadcasts_S256x1_S256x2048 (ix2 p s)) = _
  rw [broadcastTo_a1_ab_apply, shapeCast_a_a1_apply, weightsK_apply]
  refine congrArg (Ideal.div _)
    ((Ideal.multiReduction_add_single (weightsK z) 0x00000000#32 reduces_S256x2048_S256 (.inl rfl) rfl (ix1 p)).trans ?_)
  exact Finset.sum_congr rfl fun s' _ => (congrArg (weightsK z) (lift_row _ p s')).trans (weightsK_apply z p s')

/-- THE BODY AT AN INDEX: entry `(p, e)` of the block it produces is the attention of the block's query row `p`
    over the loaded keys and values. -/
theorem pay_at (i : grid0.Coords) (v0 : Vec Ideal S1x256x64 .f32) (v3 v6 : Vec Ideal S1x2048x64 .f32) (w : Elt Ideal .i32)
    (p : Fin 256) (e : Fin 64) :
    k0_pay2 (F := Ideal) i v0 v3 v6 w (ix2 p e)
      = attnRow (fun d => v0 (ix3 (0 : Fin 1) p d)) (fun s d => v3 (ix3 (0 : Fin 1) s d)) (fun s e => v6 (ix3 (0 : Fin 1) s e))
          (keepK w (i 1).val p) e := by
  rw [pay_split, Dots.output_apply]
  unfold attnRow
  refine Finset.sum_congr rfl fun s _ => ?_
  rw [truncf_apply, truncf_apply, softmaxRows_apply]
  simp only [maskedScores_apply, shapeCast_1ab_ab_apply]

/-- The kernel's word arithmetic for the query position: tile `qi`, row `p` is position `qi * 256 + p`. -/
theorem qpos_word (qi p : ℕ) : IntOp.addi (Scalar.muli (BitVec.ofNat 32 qi) 256#32) (BitVec.ofNat 32 p) = BitVec.ofNat 32 (qi * 256 + p) := by
  show BitVec.ofNat 32 qi * BitVec.ofNat 32 256 + BitVec.ofNat 32 p = _
  rw [BitVec.ofNat_add, BitVec.ofNat_mul]

end Cert.Attn.Kern

end
-- ==== Proof.KernelValue.lean ====
/-
  What the kernel's result array holds after the run: `Cert.Attn.attn` of the four argument arrays.

  The grid has `16 × 8` points; point `t` is batch `n = t / 8` and query tile `qi = t % 8`. There the body is handed
  rows `[qi * 256, qi * 256 + 256)` of batch `n`'s queries, all of batch `n`'s keys and values, and reads the
  batch's prefix length from the prefix array; the one block it stores is, at row `p` and feature `e`, the
  attention of query position `qi * 256 + p` (KernelPayload's row function, its keep-mask rewritten from the
  kernel's word arithmetic `qi * 256 + p` to the position itself). That block is written back to rows
  `[qi * 256, qi * 256 + 256)` of batch `n` of the result. So every point writes its block of ONE whole-array
  function, `attn`, and the `128` blocks tile the `[16, 2048, 64]` result: index `(n, p, e)` lies in the block
  of point `n * 8 + p / 256`. Hence the array ends at `attn`, and the arguments are left as they were.
-/
import proofs.«426738_j31782757991059_1_alg».proof.Proof.Gen.KernelIdeal.Frame
import proofs.«426738_j31782757991059_1_alg».proof.Proof.KernelPayload
import Idealize.ShloMosaic.Lib.Pipeline.Value
import Idealize.ShloMosaic.Lib.Tactic

set_option maxRecDepth 16384

noncomputable section

namespace Cert.Attn.KValue

open Cert.KernelIdeal Cert.KernelIdeal.Gen
open Idealize.ShloMosaic Idealize.ShloMosaic.TcCoe Idealize.SL.Sem Idealize.ShloMosaic.Tactic
open Idealize.ShloMosaic.ValueIdx Cert.Attn
open Idealize.ShloMosaic.Pipeline (Dat)

variable {F : FTy → Type} [FloatOps F]

theorem hz : (![0, 0, 0] : Fin 3 → Nat) = fun _ => 0 := funext fun a => by fin_cases a <;> rfl

/-- The prefix length the body reads: the table's word at the grid's batch coordinate. -/
def prefixWord (c : Dev nD) (i : grid0.Coords) (xt0 : TbBuf0 (F := F) c tbM0_0) : Elt F .i32 :=
  tbM0_0.view.readAt (Elt F) (Rect.unit (s := S16) (k0_off1 i) S1.size (k0_off1_inb i)).toLoadRect xt0
    (Shape.Idx.first (numel1_S1.symm ▸ Nat.one_pos))

/-- What the body leaves in the output's staging buffer: its one store's payload, of the three staging buffers read
    whole and the prefix word. -/
theorem out_A (c : Dev nD) (i : grid0.Coords) (arg3 : Memref sig .tc .vmem S1x256x64 .f32) (harg3 : arg3.IsWhole)
    (arg4 : Memref sig .tc .vmem S1x2048x64 .f32) (harg4 : arg4.IsWhole) (arg5 : Memref sig .tc .vmem S1x2048x64 .f32) (harg5 : arg5.IsWhole)
    (arg6 : Memref sig .tc .vmem S1x256x64 .f32) (harg6 : arg6.IsWhole)
    (x0 : Vec F S1x256x64 .f32) (x1 : Vec F S1x2048x64 .f32) (x2 : Vec F S1x2048x64 .f32) (xt0 : TbBuf0 (F := F) c tbM0_0) :
    out0_A_3 (F := F) c i arg3 harg3 arg4 harg4 arg5 harg5 arg6 harg6 x0 x1 x2 xt0
      = k0_pay1 (k0_pay2 i x0 x1 x2 (prefixWord c i xt0)) := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz]
  simp only [View.readAt_eq_ld, harg3.read_unread, harg4.read_unread, harg5.read_unread,
    View.ld_unit_zero (S := S1x256x64) hz, View.ld_unit_zero (S := S1x2048x64) hz]
  rfl

variable (m : (ℓ : Loc nD τ sig) → Buf (Elt F) ℓ)

/-- Read off the launch memory, the prefix word at grid point `i` is the prefix array's entry at `i`'s batch. -/
theorem prefixWord_tbl (c : Dev nD) (i : grid0.Coords) :
    prefixWord c i (tbl m 0) = V m c main_arg3 (ix1 (⟨(i 0).val, (i 0).isLt⟩ : Fin 16)) := by
  obtain rfl : c = 0 := Subsingleton.elim _ _
  show m (((0 : Dev nD) : Thread nD τ).loc main_arg3) _ = m (((0 : Dev nD) : Thread nD τ).loc main_arg3) _
  refine congrArg (m _) (funext fun a => Fin.ext ?_)
  match a with
  | ⟨0, _⟩ =>
    show (k0_off1 i) 0 + 1 * 0 = (i 0).val
    rw [k0_off1_eq]; rfl

/-! ## The index maps and the grid's coordinates, in closed form -/

theorem tr0_eq : ∀ i : grid0.Coords, cc0_transform_0 i = ![(i 0).val, (i 1).val, 0] := by decide +kernel
theorem tr1_eq : ∀ i : grid0.Coords, cc0_transform_1 i = ![(i 0).val, 0, 0] := by decide +kernel
theorem tr2_eq : ∀ i : grid0.Coords, cc0_transform_2 i = ![(i 0).val, 0, 0] := by decide +kernel
theorem tr3_eq : ∀ i : grid0.Coords, cc0_transform_3 i = ![(i 0).val, (i 1).val, 0] := by decide +kernel
/-- Point `t` of the `16 × 8` grid is batch `t / 8`, query tile `t % 8`. -/
theorem coords_eq : ∀ t : Fin grid0.N, (grid0.coords t 0).val = t.val / 8 ∧ (grid0.coords t 1).val = t.val % 8 := by decide +kernel

/-- The batch of a grid point, and the query position of row `p` of its tile. -/
abbrev bat (i : grid0.Coords) : Fin 16 := ⟨(i 0).val, (i 0).isLt⟩
abbrev qpos (i : grid0.Coords) (p : Fin 256) : Fin 2048 :=
  ⟨(i 1).val * 256 + p.val, by have h : (i 1).val < 8 := (i 1).isLt; have := p.isLt; omega⟩

/-- The blocks the pipeline hands the body at point `t`, at their literal types. -/
abbrev qblk (hO : Ok m) (c : Dev nD) (t : Fin (cfgM m hO).N) : Vec F S1x256x64 .f32 := iblk m hO c 0 t
abbrev kblk (hO : Ok m) (c : Dev nD) (t : Fin (cfgM m hO).N) : Vec F S1x2048x64 .f32 := iblk m hO c 1 t
abbrev vblk (hO : Ok m) (c : Dev nD) (t : Fin (cfgM m hO).N) : Vec F S1x2048x64 .f32 := iblk m hO c 2 t

/-- The query block at point `t` holds rows `qi * 256 …` of batch `n`'s queries. -/
theorem qblk_at (hO : Ok m) (c : Dev nD) (t : Fin (cfgM m hO).N) (u : Fin 1) (p : Fin 256) (d : Fin 64) :
    qblk m hO c t (ix3 u p d) = V m c main_arg0 (ix3 (bat (grid0.coords t)) (qpos (grid0.coords t) p) d) := by
  have e0 : cc0_transform_0 (grid0.coords t) 0 = (grid0.coords t 0).val := congrFun (tr0_eq _) 0
  have e1 : cc0_transform_0 (grid0.coords t) 1 = (grid0.coords t 1).val := congrFun (tr0_eq _) 1
  have e2 : cc0_transform_0 (grid0.coords t) 2 = 0 := congrFun (tr0_eq _) 2
  have hu := u.isLt
  show V m c main_arg0 _ = V m c main_arg0 _
  refine congrArg (V m c main_arg0) (funext fun a => Fin.ext ?_)
  match a with
  | ⟨0, _⟩ => show cc0_transform_0 (grid0.coords t) 0 * 1 + 1 * u.val = (grid0.coords t 0).val; omega
  | ⟨1, _⟩ => show cc0_transform_0 (grid0.coords t) 1 * 256 + 1 * p.val = (grid0.coords t 1).val * 256 + p.val; omega
  | ⟨2, _⟩ => show cc0_transform_0 (grid0.coords t) 2 * 64 + 1 * d.val = d.val; omega

/-- The key block at point `t` is batch `n`'s keys, whole. -/
theorem kblk_at (hO : Ok m) (c : Dev nD) (t : Fin (cfgM m hO).N) (u : Fin 1) (s : Fin 2048) (d : Fin 64) :
    kblk m hO c t (ix3 u s d) = V m c main_arg1 (ix3 (bat (grid0.coords t)) s d) := by
  have e0 : cc0_transform_1 (grid0.coords t) 0 = (grid0.coords t 0).val := congrFun (tr1_eq _) 0
  have e1 : cc0_transform_1 (grid0.coords t) 1 = 0 := congrFun (tr1_eq _) 1
  have e2 : cc0_transform_1 (grid0.coords t) 2 = 0 := congrFun (tr1_eq _) 2
  have hu := u.isLt
  show V m c main_arg1 _ = V m c main_arg1 _
  refine congrArg (V m c main_arg1) (funext fun a => Fin.ext ?_)
  match a with
  | ⟨0, _⟩ => show cc0_transform_1 (grid0.coords t) 0 * 1 + 1 * u.val = (grid0.coords t 0).val; omega
  | ⟨1, _⟩ => show cc0_transform_1 (grid0.coords t) 1 * 2048 + 1 * s.val = s.val; omega
  | ⟨2, _⟩ => show cc0_transform_1 (grid0.coords t) 2 * 64 + 1 * d.val = d.val; omega

/-- The value block at point `t` is batch `n`'s values, whole. -/
theorem vblk_at (hO : Ok m) (c : Dev nD) (t : Fin (cfgM m hO).N) (u : Fin 1) (s : Fin 2048) (e : Fin 64) :
    vblk m hO c t (ix3 u s e) = V m c main_arg2 (ix3 (bat (grid0.coords t)) s e) := by
  have e0 : cc0_transform_2 (grid0.coords t) 0 = (grid0.coords t 0).val := congrFun (tr2_eq _) 0
  have e1 : cc0_transform_2 (grid0.coords t) 1 = 0 := congrFun (tr2_eq _) 1
  have e2 : cc0_transform_2 (grid0.coords t) 2 = 0 := congrFun (tr2_eq _) 2
  have hu := u.isLt
  show V m c main_arg2 _ = V m c main_arg2 _
  refine congrArg (V m c main_arg2) (funext fun a => Fin.ext ?_)
  match a with
  | ⟨0, _⟩ => show cc0_transform_2 (grid0.coords t) 0 * 1 + 1 * u.val = (grid0.coords t 0).val; omega
  | ⟨1, _⟩ => show cc0_transform_2 (grid0.coords t) 1 * 2048 + 1 * s.val = s.val; omega
  | ⟨2, _⟩ => show cc0_transform_2 (grid0.coords t) 2 * 64 + 1 * e.val = e.val; omega

end Cert.Attn.KValue

/-! ## At the ideal instance -/

namespace Cert.Attn.KValue

open Cert.KernelIdeal Cert.KernelIdeal.Gen
open Idealize.ShloMosaic Idealize.ShloMosaic.TcCoe Idealize.SL.Sem Idealize.ShloMosaic.Tactic
open Idealize.ShloMosaic.ValueIdx Cert.Attn
open Idealize.ShloMosaic.Pipeline (Dat)

variable (m : (ℓ : Loc nD τ sig) → Buf (Elt Ideal) ℓ) (ρ : Dev nD → PrngReg)

/-- THE BODY ON A POINT'S BLOCKS: if the three blocks hold the point's rows of `q`, `k`, `v` and the word the batch's
    prefix length, the block the body stores is `attn q k v pre` on the point's rows. -/
theorem block_at (i : grid0.Coords) (x0 : Vec Ideal S1x256x64 .f32) (x1 x2 : Vec Ideal S1x2048x64 .f32) (w : Elt Ideal .i32)
    (q k v : S16x2048x64.Idx → EReal) (pre : S16.Idx → BitVec 32)
    (hq : ∀ (u : Fin 1) (p : Fin 256) (d : Fin 64), x0 (ix3 u p d) = q (ix3 (bat i) (qpos i p) d))
    (hk : ∀ (u : Fin 1) (s : Fin 2048) (d : Fin 64), x1 (ix3 u s d) = k (ix3 (bat i) s d))
    (hv : ∀ (u : Fin 1) (s : Fin 2048) (e : Fin 64), x2 (ix3 u s e) = v (ix3 (bat i) s e))
    (hw : w = pre (ix1 (bat i)))
    (u : Fin 1) (p : Fin 256) (e : Fin 64) :
    k0_pay1 (k0_pay2 (F := Ideal) i x0 x1 x2 w) (ix3 u p e) = attn q k v pre (ix3 (bat i) (qpos i p) e) := by
  have hkeep : Kern.keepK (pre (ix1 (bat i))) (i 1).val p = keepBit (pre (ix1 (bat i))) (qpos i p) :=
    funext fun s => by unfold Kern.keepK keepBit; rw [Kern.qpos_word]
  unfold k0_pay1
  show shapeCast S1x256x64 (k0_pay2 (F := Ideal) i x0 x1 x2 w) shapeCasts_S256x64_S1x256x64 (ix3 u p e) = _
  rw [shapeCast_ab_1ab_apply, Kern.pay_at]
  unfold attn
  simp only [hq, hk, hv, hw, hkeep]

/-- The result array: attention of the argument arrays as the region finds them. -/
abbrev result (c : Dev nD) : Buf (Elt Ideal) ((c : Thread nD τ).loc main_v0) :=
  attn (V m c main_arg0) (V m c main_arg1) (V m c main_arg2) (V m c main_arg3)

theorem flushed_eq (hO : Ok m) (c : Dev nD) (t : Fin (cfgM m hO).N) :
    (dats m hO 0 c).flushed 3 t = (((cfgM m hO).win 3).blk t).view.read (Elt Ideal) (result m c) := by
  show ((cfgM m hO).win 3).cut ((cfgM m hO).grid.coords t) ((dats m hO 0 c).after 3 t) = _
  rw [after0_3]
  unfold outsAt0
  refine funext fun (y : S1x256x64.Idx) => ?_
  refine (congrFun (out_A c (grid0.coords t) (ms0_0 m hO t) (hs0_0 m hO t) (ms0_1 m hO t) (hs0_1 m hO t) (ms0_2 m hO t) (hs0_2 m hO t)
    (ms0_3 m hO t) (hs0_3 m hO t) (qblk m hO c t) (kblk m hO c t) (vblk m hO c t) (tbl m 0)) y).trans ?_
  obtain ⟨u, p, e, rfl⟩ : ∃ (u : Fin 1) (p : Fin 256) (e : Fin 64), y = ix3 u p e := ⟨y 0, y 1, y 2, eq_ix3 y⟩
  refine (block_at (grid0.coords t) (qblk m hO c t) (kblk m hO c t) (vblk m hO c t) _
    (V m c main_arg0) (V m c main_arg1) (V m c main_arg2) (V m c main_arg3)
    (qblk_at m hO c t) (kblk_at m hO c t) (vblk_at m hO c t) (prefixWord_tbl m c (grid0.coords t)) u p e).trans ?_
  have e0 : cc0_transform_3 (grid0.coords t) 0 = (grid0.coords t 0).val := congrFun (tr3_eq _) 0
  have e1 : cc0_transform_3 (grid0.coords t) 1 = (grid0.coords t 1).val := congrFun (tr3_eq _) 1
  have e2 : cc0_transform_3 (grid0.coords t) 2 = 0 := congrFun (tr3_eq _) 2
  have hu := u.isLt
  show result m c _ = result m c _
  refine congrArg (result m c) (funext fun a => Fin.ext ?_)
  match a with
  | ⟨0, _⟩ => show (grid0.coords t 0).val = cc0_transform_3 (grid0.coords t) 0 * 1 + 1 * u.val; omega
  | ⟨1, _⟩ => show (grid0.coords t 1).val * 256 + p.val = cc0_transform_3 (grid0.coords t) 1 * 256 + 1 * p.val; omega
  | ⟨2, _⟩ => show e.val = cc0_transform_3 (grid0.coords t) 2 * 64 + 1 * e.val; omega

/-- Every index `(n, p, e)` of the result array is in the block of the point of batch `n` and query tile `p / 256`:
    that block is rows `[(p / 256) * 256, (p / 256) * 256 + 256)` of batch `n`, all 64 features. -/
theorem cover (hO : Ok m) (i : S16x2048x64.Idx) :
    ∃ t : Fin (cfgM m hO).N, ((cfgM m hO).win 3).flush t = true ∧ i ∈ (((cfgM m hO).win 3).blk t).view.set := by
  have h0 : (i 0).val < 16 := (i 0).isLt
  have h1 : (i 1).val < 2048 := (i 1).isLt
  have h2 : (i 2).val < 64 := (i 2).isLt
  have hN : grid0.N = 128 := N_0
  obtain ⟨T, hT⟩ : ∃ T : Fin grid0.N, T.val = (i 0).val * 8 + (i 1).val / 256 :=
    ⟨⟨(i 0).val * 8 + (i 1).val / 256, by rw [hN]; omega⟩, rfl⟩
  obtain ⟨c0, c1⟩ := coords_eq T
  have e0 : cc0_transform_3 (grid0.coords T) 0 = (grid0.coords T 0).val := congrFun (tr3_eq _) 0
  have e1 : cc0_transform_3 (grid0.coords T) 1 = (grid0.coords T 1).val := congrFun (tr3_eq _) 1
  have e2 : cc0_transform_3 (grid0.coords T) 2 = 0 := congrFun (tr3_eq _) 2
  refine ⟨T, flush0_3 (adm m hO) T, ?_⟩
  show i ∈ ((View.whole main_v0).slice (((cfgM m hO).win 3).rect T)).set
  refine (Finset.ext_iff.mp (View.set_slice_whole main_v0 (((cfgM m hO).win 3).rect T)) i).mpr ?_
  refine Rect.mem_set_unit.mpr fun a => ?_
  match a with
  | ⟨0, _⟩ =>
    show cc0_transform_3 (grid0.coords T) 0 * 1 ≤ (i 0).val ∧ (i 0).val < cc0_transform_3 (grid0.coords T) 0 * 1 + 1
    omega
  | ⟨1, _⟩ =>
    show cc0_transform_3 (grid0.coords T) 1 * 256 ≤ (i 1).val ∧ (i 1).val < cc0_transform_3 (grid0.coords T) 1 * 256 + 256
    omega
  | ⟨2, _⟩ =>
    show cc0_transform_3 (grid0.coords T) 2 * 64 ≤ (i 2).val ∧ (i 2).val < cc0_transform_3 (grid0.coords T) 2 * 64 + 64
    omega

/-- So the result array ends holding `attn` of the argument arrays. -/
theorem final (hO : Ok m) (c : Dev nD) : (dats m hO 0 c).arrAt 3 (cfgM m hO).N = result m c :=
  (dats m hO 0 c).arrAt_eq_of_cover 3 (result m c) (fun t _ => flushed_eq m hO c t) (cover m hO)

/-- THE KERNEL'S RUN, READ: every weakly fair execution ends with the result array at `attn` of the arguments and
    the four arguments as they were. -/
theorem run (hO : Ok m) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.Attn.KValue

end
-- ==== Proof.lean ====
/-
  Masked-softmax attention on a `16 × 8` grid of (batch, query tile), against its jnp reference.

  For batch `n`, query position `p` and value feature `e` both programs compute
      out (n, p, e) = Σ_s  w (n, p, s) / (Σ_s' w (n, p, s'))  ·  v (n, s, e),
      w (n, p, s)   = exp (z (n, p, s) − max_s z (n, p, s)),
      z (n, p, s)   = (Σ_d q (n, p, d) · k (n, s, d)) · 1/8   where key `s` is kept,   −1e9 where it is dropped,
  a key being kept when `s < prefix n` (signed 32-bit words) or `s = p`. The kernel does it one tile of 256
  query rows at a time with a batch's keys and values resident; the reference does it on whole arrays. Over the
  extended reals the two are the same function of the arguments, `Cert.Attn.attn` (AttnSpec): the same sums over
  the same index sets, the same three float words (`1/8`, `−1e9`, `−∞`) on both sides, the maximum taken as a
  fold of `max` from `−∞` on both sides, and the kernel's query position `qi · 256 + p` in 32-bit words the
  position itself. No law that needs finiteness is used: only the order and grouping of sums and of a maximum.

  RefIsSpec reads the reference's operations at an index and finds `attn`; KernelPayload reads the kernel body's
  arithmetic on one tile's blocks; KernelValue lays the tiles out over the result array. The prefix lengths are
  prefetched scalars no block index depends on, so the pipeline's side condition on them is empty and both kernel
  programs run for every input; the idealization rewrote nothing, so `preserves` has nothing to state.
-/
import proofs.«426738_j31782757991059_1_alg».proof.Defs
import proofs.«426738_j31782757991059_1_alg».proof.Proof.Gen.Kernel
import proofs.«426738_j31782757991059_1_alg».proof.Proof.Gen.Kernel.Skeleton
import proofs.«426738_j31782757991059_1_alg».proof.Proof.Gen.Kernel.Launch
import proofs.«426738_j31782757991059_1_alg».proof.Proof.Gen.Kernel.Points
import proofs.«426738_j31782757991059_1_alg».proof.Proof.Gen.Kernel.Frame
import proofs.«426738_j31782757991059_1_alg».proof.Proof.Gen.KernelIdeal
import proofs.«426738_j31782757991059_1_alg».proof.Proof.Gen.KernelIdeal.Skeleton
import proofs.«426738_j31782757991059_1_alg».proof.Proof.Gen.KernelIdeal.Launch
import proofs.«426738_j31782757991059_1_alg».proof.Proof.Gen.KernelIdeal.Points
import proofs.«426738_j31782757991059_1_alg».proof.Proof.Gen.KernelIdeal.Frame
import proofs.«426738_j31782757991059_1_alg».proof.Proof.Gen.ReferenceIdeal
import proofs.«426738_j31782757991059_1_alg».proof.Proof.Gen.Pre_finite_inputs
import proofs.«426738_j31782757991059_1_alg».proof.Proof.Gen.ReferenceIdeal.Run
import proofs.«426738_j31782757991059_1_alg».proof.Proof.Gen.ReferenceIdeal.Read
import proofs.«426738_j31782757991059_1_alg».proof.Proof.RefIsSpec
import proofs.«426738_j31782757991059_1_alg».proof.Proof.KernelValue
import Idealize.ShloMosaic.Adequacy
import Idealize.ShloMosaic.Init

noncomputable section

namespace Cert.Proof

open Idealize.ShloMosaic Idealize.SL.Sem

/-- No block index reads the prefetched prefix lengths, so nothing is asked of them: at the bit-exact instance, -/
theorem ok_kernel (m : (ℓ : Loc Cert.Kernel.nD Cert.Kernel.τ Cert.Kernel.sig) → Buf (Elt Bits) ℓ) : Cert.Kernel.Gen.Ok m := trivial
/-- and at the ideal one. -/
theorem ok_ideal (m : (ℓ : Loc Cert.KernelIdeal.nD Cert.KernelIdeal.τ Cert.KernelIdeal.sig) → Buf (Elt Ideal) ℓ) : Cert.KernelIdeal.Gen.Ok m := trivial

/-- The kernel runs and leaves its arguments alone, -/
theorem frame_k : Cert.frame_Kernel := fun m ρ _ => Cert.Kernel.Gen.frame m ρ (ok_kernel m)
/-- so does its reading over the extended reals, -/
theorem frame_ki : Cert.frame_KernelIdeal := fun m ρ _ => Cert.KernelIdeal.Gen.frame m ρ (ok_ideal m)
/-- and so does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments the kernel's result array ends at `attn` of them (KernelValue)
    and the reference's at `attn` of its own (RefIsSpec): one array. -/
theorem algebraic : Cert.algebraic_KernelIdeal_ReferenceIdeal := by
  intro m ρ m' ρ' _ hagree
  refine ⟨fun c => Cert.Attn.KValue.result m c, Cert.Attn.KValue.run m ρ (ok_ideal m), ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v30 m' c = Cert.Attn.KValue.result m c
  rw [Cert.ReferenceIdeal.Read.val_main_v30_eq, Cert.Attn.Ref.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
